-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S2x1000000 : S_.BroadcastsInDim S2x1000000 (![] : Fin 0 → Fin S2x1000000.rank)
  reducesTo_S2x1000000_S_d0_1 : S2x1000000.ReducesTo [0, 1] S_

variable [Facts]

def fn_part2 {F : FTy → Type} [FloatOps F] (main_arg1 : IVec S2x1000000 32) (main_v32 : IVec S_ 1) (main_c_12 : IVec S_ 32) : IVec S_ 1 :=
  let main_v33 : IVec S2x1000000 32 := broadcastInDim S2x1000000 ![] bcast_S_S2x1000000 main_c_12
  let main_v34 : IVec S2x1000000 1 := cmpi .slt main_arg1 main_v33
  let main_c_13 : IVec S_ 1 := constantI S_ 1 1#1
  let main_v35 : IVec S_ 1 := (fun x v => Host.reduce IntOp.andi x v reducesTo_S2x1000000_S_d0_1 h_S_) main_v34 main_c_13
  let main_v36 : IVec S_ 1 := andi main_v32 main_v35
  main_v36

def fn_part1 {F : FTy → Type} [FloatOps F] (main_arg1 : IVec S2x1000000 32) (main_arg5 : FVec F S64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_c_10 : IVec S_ 32 := constantI S_ 32 0#32
  let main_v29 : IVec S2x1000000 32 := broadcastInDim S2x1000000 ![] bcast_S_S2x1000000 main_c_10
  let main_v30 : IVec S2x1000000 1 := cmpi .sge main_arg1 main_v29
  let main_c_11 : IVec S_ 1 := constantI S_ 1 1#1
  let main_v31 : IVec S_ 1 := (fun x v => Host.reduce IntOp.andi x v reducesTo_S2x1000000_S_d0_1 h_S_) main_v30 main_c_11
  let main_v32 : IVec S_ 1 := andi main_v28 main_v31
  let main_c_12 : IVec S_ 32 := constantI S_ 32 100000#32
  fn_part2 (F := F) main_arg1 main_v32 main_c_12

def fn {F : FTy → Type} [FloatOps F] (main_arg0 : FVec F S100000x64 .f32) (main_arg1 : IVec S2x1000000 32) (main_arg2 : FVec F S64x64 .f32) (main_arg3 : FVec F S64x64 .f32) (main_arg4 : FVec F S64 .f32) (main_arg5 : FVec F S64 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_v13 main_v16
-- ==== Kernel.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S1x64 : Shape := ⟨2, ![1, 64]⟩
abbrev S5000x64 : Shape := ⟨2, ![5000, 64]⟩
abbrev S5000x1 : Shape := ⟨2, ![5000, 1]⟩
abbrev S5000 : Shape := ⟨1, ![5000]⟩

abbrev nBuf : Space → Nat
  | .hbm => 53
  | .vmem => 13
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S1x1000000, .i32⟩
  | .hbm, ⟨8, _⟩ => ⟨S1000000, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S1000000, .i32⟩
  | .hbm, ⟨13, _⟩ => ⟨S1000000, .i32⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S1x1000000, .i32⟩
  | .hbm, ⟨18, _⟩ => ⟨S1000000, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S_, .i32⟩
  | .hbm, ⟨28, _⟩ => ⟨S1000000, .i32⟩
  | .hbm, ⟨29, _⟩ => ⟨S1000000, .i1⟩
  | .hbm, ⟨30, _⟩ => ⟨S_, .i32⟩
  | .hbm, ⟨31, _⟩ => ⟨S1000000, .i32⟩
  | .hbm, ⟨32, _⟩ => ⟨S1000000, .i32⟩
  | .hbm, ⟨33, _⟩ => ⟨S1000000, .i32⟩
  | .hbm, ⟨34, _⟩ => ⟨S1000000x1, .i32⟩
  | .hbm, ⟨35, _⟩ => ⟨S1000000x64, .f32⟩
  | .hbm, ⟨36, _⟩ => ⟨S_, .f32⟩
  | .hbm, ⟨37, _⟩ => ⟨S100000x64, .f32⟩
  | .hbm, ⟨38, _⟩ => ⟨S1000000x1, .i32⟩
  | .hbm, ⟨39, _⟩ => ⟨S100000x64, .f32⟩
  | .hbm, ⟨40, _⟩ => ⟨S_, .f32⟩
  | .hbm, ⟨41, _⟩ => ⟨S1000000, .f32⟩
  | .hbm, ⟨42, _⟩ => ⟨S_, .f32⟩
  | .hbm, ⟨43, _⟩ => ⟨S100000, .f32⟩
  | .hbm, ⟨44, _⟩ => ⟨S1000000x1, .i32⟩
  | .hbm, ⟨45, _⟩ => ⟨S100000, .f32⟩
  | .hbm, ⟨46, _⟩ => ⟨S100000x1, .f32⟩
  | .hbm, ⟨47, _⟩ => ⟨S64x64, .f32⟩
  | .hbm, ⟨48, _⟩ => ⟨S64x64, .f32⟩
  | .hbm, ⟨49, _⟩ => ⟨S1x64, .f32⟩
  | .hbm, ⟨50, _⟩ => ⟨S1x64, .f32⟩
  | .hbm, ⟨51, _⟩ => ⟨S1x64, .f32⟩
  | .hbm, ⟨52, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S5000x64, .f32⟩
  | .local _ .vmem, ⟨12, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c_1 : Ref sig .tc := ⟨.hbm, 19, rfl⟩
abbrev main_c_2 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v5 : Ref sig .tc := ⟨.hbm, 26, rfl⟩
abbrev main_c_3 : Ref sig .tc := ⟨.hbm, 27, rfl⟩
abbrev main_v6 : Ref sig .tc := ⟨.hbm, 28, rfl⟩
abbrev main_v7 : Ref sig .tc := ⟨.hbm, 29, rfl⟩
abbrev main_c_4 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_5 : Ref sig .tc := ⟨.hbm, 40, rfl⟩
abbrev main_v16 : Ref sig .tc := ⟨.hbm, 41, rfl⟩
abbrev main_cst_6 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  slices_S2x1000000_S1x1000000_1_0 : S2x1000000.Slices ![1, 0] S1x1000000
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S100000 : S_.BroadcastsInDim S100000 (![] : Fin 0 → Fin S100000.rank)
  shapeCasts_S100000_S100000x1 : S100000.ShapeCasts S100000x1
  transposes_S64x64_S64x64_1_0 : S64x64.Transposes [1, 0] S64x64
  shapeCasts_S64_S1x64 : S64.ShapeCasts S1x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x64.size a ≤ S100000x64.size a
  hwx0_8 : ∀ i : grid0.Coords, EltTy.bits .f32 = 32 ∨ (Rect.block (s := S100000x64) S5000x64.size (cc0_transform_8 i) (hinb0_8 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v15) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26) S5000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 78
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S1x1000000, .i32⟩
  | .hbm, ⟨8, _⟩ => ⟨S1000000, .i32⟩
  | .hbm, ⟨9, _⟩ => ⟨S1x1000000, .i32⟩
  | .hbm, ⟨10, _⟩ => ⟨S1000000, .i32⟩
  | .hbm, ⟨11, _⟩ => ⟨S_, .i32⟩
  | .hbm, ⟨12, _⟩ => ⟨S1000000, .i32⟩
  | .hbm, ⟨13, _⟩ => ⟨S1000000, .i1⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S1000000, .i32⟩
  | .hbm, ⟨18, _⟩ => ⟨S1000000x1, .i32⟩
  | .hbm, ⟨19, _⟩ => ⟨S1000000x64, .f32⟩
  | .hbm, ⟨20, _⟩ => ⟨S_, .f32⟩
  | .hbm, ⟨21, _⟩ => ⟨S100000x64, .f32⟩
  | .hbm, ⟨22, _⟩ => ⟨S1000000x1, .i32⟩
  | .hbm, ⟨23, _⟩ => ⟨S100000x64, .f32⟩
  | .hbm, ⟨24, _⟩ => ⟨S_, .f32⟩
  | .hbm, ⟨25, _⟩ => ⟨S1000000, .f32⟩
  | .hbm, ⟨26, _⟩ => ⟨S_, .f32⟩
  | .hbm, ⟨27, _⟩ => ⟨S100000, .f32⟩
  | .hbm, ⟨28, _⟩ => ⟨S1000000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x64, .f32⟩
  | .hbm, ⟨35, _⟩ => ⟨S100000x64, .f32⟩
  | .hbm, ⟨36, _⟩ => ⟨S64x64, .f32⟩
  | .hbm, ⟨37, _⟩ => ⟨S100000x64, .f32⟩
  | .hbm, ⟨38, _⟩ => ⟨S64x64, .f32⟩
  | .hbm, ⟨39, _⟩ => ⟨S100000x64, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S_, .f32⟩
  | .hbm, ⟨45, _⟩ => ⟨S100000, .f32⟩
  | .hbm, ⟨46, _⟩ => ⟨S100000x1, .f32⟩
  | .hbm, ⟨47, _⟩ => ⟨S_, .f32⟩
  | .hbm, ⟨48, _⟩ => ⟨S100000x1, .f32⟩
  | .hbm, ⟨49, _⟩ => ⟨S100000x1, .f32⟩
  | .hbm, ⟨50, _⟩ => ⟨S100000x64, .f32⟩
  | .hbm, ⟨51, _⟩ => ⟨S100000x64, .f32⟩
  | .hbm, ⟨52, _⟩ => ⟨S100000x64, .f32⟩
  | .hbm, ⟨53, _⟩ => ⟨S_, .f32⟩
  | .hbm, ⟨54, _⟩ => ⟨S100000, .f32⟩
  | .hbm, ⟨55, _⟩ => ⟨S100000x1, .f32⟩
  | .hbm, ⟨56, _⟩ => ⟨S_, .f32⟩
  | .hbm, ⟨57, _⟩ => ⟨S100000x1, .f32⟩
  | .hbm, ⟨58, _⟩ => ⟨S100000x1, .f32⟩
  | .hbm, ⟨59, _⟩ => ⟨S100000x64, .f32⟩
  | .hbm, ⟨60, _⟩ => ⟨S100000x64, .f32⟩
  | .hbm, ⟨61, _⟩ => ⟨S_, .f32⟩
  | .hbm, ⟨62, _⟩ => ⟨S100000x1, .f32⟩
  | .hbm, ⟨63, _⟩ => ⟨S100000x1, .f32⟩
  | .hbm, ⟨64, _⟩ => ⟨S100000x1, .f32⟩
  | .hbm, ⟨65, _⟩ => ⟨S100000x64, .f32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x64, .f32⟩
  | .hbm, ⟨73, _⟩ => ⟨S_, .f32⟩
  | .hbm, ⟨74, _⟩ => ⟨S100000x64, .f32⟩
  | .hbm, ⟨75, _⟩ => ⟨S100000x64, .i1⟩
  | .hbm, ⟨76, _⟩ => ⟨S100000x64, .f32⟩
  | .hbm, ⟨77, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_9 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S_S100000x1 : S_.BroadcastsInDim S100000x1 (![] : Fin 0 → Fin S100000x1.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x64_S64x64_S100000x64_1_0_0_1_n_n_wf : DotDims.WF S100000x64 S64x64 S100000x64 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.EdgeRange.lean ====
/-
  The precondition's two integer conjuncts, read back.

  The precondition asks, beside finite float inputs, that every entry e of the edge list satisfy 0 ≤ e and
  e < 100000 as signed 32-bit numbers: each entry names a node. Each conjunct is an all-reduction by `and` of a
  word comparison, so the predicate being 1 gives the comparison at every index, and a word that is not negative and
  is below 100000 as a signed number has unsigned value below 100000.
-/
import proofs.«416080_j28527172780472_2_alg».proof.Pre_finite_inputs
import Idealize.ShloMosaic.Lib.ReduceAll
import Idealize.ShloMosaic.Lib.StableHlo.Predicate

noncomputable section

namespace Cert.Sage.EdgeRange

open Idealize.ShloMosaic Cert.Pre_finite_inputs

/-- A rank-0 array has one index. -/
instance : Subsingleton S_.Idx := ⟨fun _ _ => funext fun d => d.elim0⟩

/-- A word in [0, 100000) as a signed number is below 100000 as an unsigned one. -/
theorem toNat_lt_of_signed (w : BitVec 32) (h0 : IntOp.cmpi .sge w 0#32 = 1#1) (h1 : IntOp.cmpi .slt w 100000#32 = 1#1) :
    w.toNat < 100000 := by
  unfold IntOp.cmpi at h0 h1
  rw [StableHlo.Predicate.ofBool_eq_one_iff] at h0 h1
  simp only [BitVec.sle, BitVec.slt, decide_eq_true_eq] at h0 h1
  have e0 : (0#32 : BitVec 32).toInt = 0 := by decide
  have e1 : (100000#32 : BitVec 32).toInt = 100000 := by decide
  rw [e0] at h0
  rw [e1] at h1
  have hw := w.isLt
  by_cases hm : 2 * w.toNat < 2 ^ 32
  · have : w.toInt = w.toNat := by unfold BitVec.toInt; rw [if_pos hm]
    omega
  · have : w.toInt = (w.toNat : Int) - 2 ^ 32 := by unfold BitVec.toInt; rw [if_neg hm]; rfl
    omega

/-- Under the precondition every entry of the edge list is a node number. -/
theorem edge_lt {F : FTy → Type} [FloatOps F] [Facts] (a0 : FVec F S100000x64 .f32) (a1 : IVec S2x1000000 32)
    (a2 a3 : FVec F S64x64 .f32) (a4 a5 a6 : FVec F S64 .f32)
    (h : fn (F := F) a0 a1 a2 a3 a4 a5 a6 = fun _ => 1#1) (i : S2x1000000.Idx) : (a1 i).toNat < 100000 := by
  have e := congrFun h (fun d => d.elim0 : S_.Idx)
  unfold fn fn_part1 fn_part2 at e
  obtain ⟨e32, e35⟩ := IntOp.andi_eq_one.1 e
  obtain ⟨-, e31⟩ := IntOp.andi_eq_one.1 e32
  have hge : IntOp.cmpi .sge (a1 i) 0#32 = 1#1 := Host.reduce_andi_all _ _ _ _ _ e31 i
  have hlt : IntOp.cmpi .slt (a1 i) 100000#32 = 1#1 := Host.reduce_andi_all _ _ _ _ _ e35 i
  exact toNat_lt_of_signed _ hge hlt

/-- Clipping a node number to [0, 99999] leaves it. -/
theorem clip_id (w : BitVec 32) (hw : w.toNat < 100000) : IntOp.minsi 99999#32 (IntOp.maxsi 0#32 w) = w := by
  have hti : w.toInt = w.toNat := StableHlo.Predicate.toInt_eq_toNat_of_lt (by omega)
  have h0 : (0#32 : BitVec 32).toInt = 0 := by decide
  have h9 : (99999#32 : BitVec 32).toInt = 99999 := by decide
  have hlo : ¬ (w.slt 0#32 = true) := by
    simp only [BitVec.slt, hti, h0, decide_eq_true_eq]; omega
  have hmax : IntOp.maxsi 0#32 w = w := by unfold IntOp.maxsi; rw [if_neg hlo]
  have hhi : ¬ ((99999#32 : BitVec 32).slt w = true) := by
    simp only [BitVec.slt, hti, h9, decide_eq_true_eq]; omega
  rw [hmax]
  unfold IntOp.minsi
  rw [if_neg hhi]

/-- A node number is not negative, so the wrap of negative indices (add the extent where the word is below zero)
    leaves it. -/
theorem wrap_id (w : BitVec 32) (hw : w.toNat < 100000) :
    Scalar.select (IntOp.cmpi .slt w 0#32) (IntOp.addi w 100000#32) w = w := by
  have hc : ¬ (IntOp.cmpi .slt w 0#32 = 1#1) := by
    rw [StableHlo.Predicate.slt_iff_toNat (by omega) (by decide)]
    exact Nat.not_lt_zero _
  unfold Scalar.select
  exact if_neg hc

end Cert.Sage.EdgeRange

end
-- ==== Proof.NormScalars.lean ====
/-
  Scalar facts on the extended reals for the normalisation step.

  A row's centred entries d₀ … d₆₃ have variance v = (Σⱼ dⱼ · dⱼ) / 64, and the row is scaled by the inverse square
  root of v + ε. One program multiplies by rsqrt (v + ε), the other divides by sqrt (v + ε). The two agree at every
  extended real d as soon as v + ε is positive, and it always is: a square is never negative on the extended reals
  (the product of two infinities of the same sign is +∞), so the sum of squares and its 64th part are not negative,
  and ε is a positive number.
-/
import Idealize.ShloMosaic.PureOps.Ideal.Laws
import Idealize.ShloMosaic.Lib.IdealHost

noncomputable section

namespace Cert.Sage

open Idealize.ShloMosaic
open scoped BigOperators

/-- The word of 64.0 denotes the real 64. -/
theorem ofBits_sixtyfour : Ideal.ofBits .f32 0x42800000#32 = ((64 : ℝ) : EReal) := by
  simp [Ideal.ofBits, Ideal.ieee, -EReal.coe_mul]; norm_num

/-- The word of ε (the f32 nearest 1e-5) denotes a positive number. -/
theorem eps_pos : (0 : EReal) < Ideal.ofBits .f32 0x3727C5AC#32 := by
  have h : Ideal.ofBits .f32 0x3727C5AC#32 = (((10995116 : ℝ) * (2 : ℝ) ^ (-40 : ℤ) : ℝ) : EReal) := by
    simp [Ideal.ofBits, Ideal.ieee, -EReal.coe_mul]
  rw [h]
  exact EReal.coe_pos.mpr (by positivity)

/-- A square is not negative, at the infinities too. -/
theorem mul_self_nonneg' (d : EReal) : 0 ≤ d * d :=
  EReal.mul_nonneg_iff.mpr ((le_total 0 d).imp (fun h => ⟨h, h⟩) (fun h => ⟨h, h⟩))

/-- The 64th part of a quantity that is not negative is not negative. -/
theorem div_sixtyfour_nonneg {s : EReal} (hs : 0 ≤ s) : 0 ≤ Ideal.div s (Ideal.ofBits .f32 0x42800000#32) := by
  rw [ofBits_sixtyfour, Ideal.div_coe (by norm_num : (64 : ℝ) ≠ 0)]
  exact EReal.mul_nonneg hs (EReal.coe_nonneg.mpr (by norm_num))

/-- The variance of any 64 extended reals, plus ε, is positive. -/
theorem var_add_eps_pos (d : Fin 64 → EReal) :
    0 < Ideal.div (∑ j : Fin 64, d j * d j) (Ideal.ofBits .f32 0x42800000#32) + Ideal.ofBits .f32 0x3727C5AC#32 :=
  Right.add_pos_of_nonneg_of_pos
    (div_sixtyfour_nonneg (Finset.sum_nonneg fun j _ => mul_self_nonneg' (d j))) eps_pos

/-- Multiplying by the inverse square root is dividing by the square root, wherever the argument is positive
    (+∞ included: both sides are then 0). -/
theorem mul_rsqrt_eq_div_sqrt (x v : EReal) (hv : 0 < v) : x * Ideal.rsqrt v = Ideal.div x (Ideal.sqrt v) := by
  induction v using EReal.rec with
  | bot => exact absurd hv (by simp)
  | top =>
    rw [Ideal.rsqrt_top, Ideal.sqrt_top, Ideal.div, if_neg (by simp), EReal.inv_top]
  | coe r =>
    have hr : 0 < r := EReal.coe_pos.mp hv
    have hs : Real.sqrt r ≠ 0 := (Real.sqrt_pos.mpr hr).ne'
    rw [Ideal.rsqrt_coe, Ideal.sqrt_coe, if_neg (not_lt.mpr hr.le), if_neg hr.ne', if_neg (not_lt.mpr hr.le),
      Ideal.div, if_neg (by exact_mod_cast hs), EReal.coe_inv]

end Cert.Sage

end
-- ==== Proof.RowSpec.lean ====
/-
  One node's output, as a function of that node's row of data — the specification both programs are set against.

  For a node with summed neighbour features a (64 entries), neighbour count n, own features x, and the layer's two
  64×64 weight matrices (given here as the kernel's matrix product sees them, entry (k, j)) and bias b:

    h j   = Σₖ (a k / max n 1) · wl k j  +  Σₖ x k · wr k j  +  b j          (mean aggregation and the two linear maps)
    μ     = (Σⱼ h j) / 64,   d j = h j − μ,   v = (Σⱼ d j · d j) / 64        (the row's mean and variance)
    y j   = d j · (v + ε)^(−1/2) · γ j + β j                                  (layer normalisation)
    out j = y j  if y j > 0,  else  e^(y j) − 1                               (ELU)

  The two programs spell two steps differently: the scale as a product with rsqrt (v + ε) against a quotient by
  sqrt (v + ε), and the constant 1 of the ELU as the f32 word of 1.0 against the number 1. Both spellings are one
  function of the row on all of the extended reals: v + ε is positive whatever the row holds.
-/
import proofs.«416080_j28527172780472_2_alg».proof.Proof.NormScalars

noncomputable section

namespace Cert.Sage

open Idealize.ShloMosaic
open scoped BigOperators

/-- The linear step: the mean of the neighbours through one matrix, the node's own features through the other, the bias. -/
def lin (a : Fin 64 → EReal) (n : EReal) (x : Fin 64 → EReal) (wl wr : Fin 64 → Fin 64 → EReal) (b : Fin 64 → EReal)
    (j : Fin 64) : EReal :=
  ((∑ k : Fin 64, Ideal.div (a k) (max n (Ideal.ofBits .f32 0x3F800000#32)) * wl k j) + ∑ k : Fin 64, x k * wr k j) + b j

/-- A row's mean. -/
def rowMean (h : Fin 64 → EReal) : EReal := Ideal.div (∑ j : Fin 64, h j) (Ideal.ofBits .f32 0x42800000#32)

/-- A row's entry with the mean taken off. -/
def ctr (h : Fin 64 → EReal) (j : Fin 64) : EReal := h j - rowMean h

/-- A row's variance. -/
def rowVar (h : Fin 64 → EReal) : EReal := Ideal.div (∑ j : Fin 64, ctr h j * ctr h j) (Ideal.ofBits .f32 0x42800000#32)

/-- The centred entry scaled by the inverse square root of variance plus ε, as a product. -/
def scaledMul (h : Fin 64 → EReal) (j : Fin 64) : EReal :=
  ctr h j * Ideal.rsqrt (rowVar h + Ideal.ofBits .f32 0x3727C5AC#32)

/-- The same as a quotient by the square root. -/
def scaledDiv (h : Fin 64 → EReal) (j : Fin 64) : EReal :=
  Ideal.div (ctr h j) (Ideal.sqrt (rowVar h + Ideal.ofBits .f32 0x3727C5AC#32))

theorem scaledMul_eq_scaledDiv (h : Fin 64 → EReal) (j : Fin 64) : scaledMul h j = scaledDiv h j :=
  mul_rsqrt_eq_div_sqrt _ _ (var_add_eps_pos (ctr h))

/-- ELU with the constant one given by its f32 word. -/
def eluWord (y : EReal) : EReal :=
  Scalar.select (Ideal.cmp .ogt y (Ideal.ofBits .f32 0x00000000#32)) y (Ideal.exp y - Ideal.ofBits .f32 0x3F800000#32)

/-- ELU with the number one. -/
def eluOne (y : EReal) : EReal :=
  Scalar.select (Ideal.cmp .ogt y (Ideal.ofBits .f32 0x00000000#32)) y (Ideal.exp y - 1)

theorem eluWord_eq_eluOne (y : EReal) : eluWord y = eluOne y := by
  unfold eluWord eluOne
  rw [Ideal.ofBits_one_f32]

/-- One node's output entry, the scale as a product and the ELU's one as a word. -/
def outMul (h g be : Fin 64 → EReal) (j : Fin 64) : EReal := eluWord (scaledMul h j * g j + be j)

/-- One node's output entry, the scale as a quotient and the ELU's one as the number. -/
def outDiv (h g be : Fin 64 → EReal) (j : Fin 64) : EReal := eluOne (scaledDiv h j * g j + be j)

theorem outMul_eq_outDiv (h g be : Fin 64 → EReal) (j : Fin 64) : outMul h g be j = outDiv h g be j := by
  unfold outMul outDiv
  rw [scaledMul_eq_scaledDiv, eluWord_eq_eluOne]

end Cert.Sage

end
-- ==== Proof.LibColumns.lean ====
/-
  A column kept as a unit axis, read at an index.

  A length-a vector reshaped to a×1 reads, at (p, 0), the vector at p. An a×1 column broadcast along a second axis of
  extent b reads, at (p, c), the column at (p, 0). The kernel's sum of an a×b array along its second axis reads, at
  row p, the sum over k of the array at (p, k). These are the forms a per-row statistic (a mean, a variance) takes on
  its way back to the rows.
-/
import Idealize.ShloMosaic.Lib.ValueIdx
import Idealize.ShloMosaic.Lib.Pipeline.Value
import Idealize.ShloMosaic.PureOps.Ideal.Laws

noncomputable section

namespace Columns

open Idealize.ShloMosaic Idealize.ShloMosaic.ValueIdx
open scoped BigOperators

variable {α : Type} {a b : ℕ}

/-- An a×1 column broadcast to a×b reads, at (p, c), the column's entry of row p. -/
theorem broadcastTo_a1_ab_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A length-a vector cast to a×1 reads, at (p, u), the vector at p, whatever the unit coordinate u. -/
theorem shapeCast_a_a1_apply (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- The kernel's sum along the second axis, at row p, is the sum of that row. -/
theorem rowSum_apply {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

end Columns

end
-- ==== Proof.LibPlainDot.lean ====
/-
  A plain matrix product read at an index.

  For a contraction of an M×K matrix with a K×N matrix along the shared axis (the left operand's axis 1 against the
  right operand's axis 0, no batch axes), the entry at row r and column c is the sum over k of A[r, k] · B[k, c].
  This holds for the kernel's matrix product into a zero accumulator and for the host's dot product alike, on the
  extended reals, and it is stated for ANY dimension-number record with those axis lists, so that each printed record
  is an instance by reflexivity of its lists.
-/
import Idealize.ShloMosaic.Lib.ValueIdx
import Idealize.ShloMosaic.PureOps.Ideal.Laws

noncomputable section

namespace PlainDot

open Idealize.ShloMosaic Idealize.ShloMosaic.ValueIdx

variable {M K N : Nat} {φ₁ φ₂ : FTy}

/-- The axis lists of a plain product. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable (d : DotDims ⟨2, ![M, K]⟩ ⟨2, ![K, N]⟩ ⟨2, ![M, N]⟩) (hd : IsPlain d)

include hd

theorem contr_rank : d.contr.rank = 1 := by rw [d.rank_contr, hd.lc]; rfl

theorem contr_size : d.contr.size ⟨0, by rw [contr_rank d hd]; exact Nat.one_pos⟩ = K := by
  have h := d.size_contr 0 (by rw [hd.lc]; exact Nat.one_pos)
  rw [h]
  simp [hd.lc]

/-- The left operand is read at row `r`, column the contraction coordinate. -/
theorem lhsIdx_eq (r : Fin M) (c : Fin N) (k : Fin K) :
    d.lhsIdx (ix2 r c) ((contrEquiv1 d K (contr_rank d hd) (contr_size d hd)).symm k) = ix2 r k := by
  funext a
  apply Fin.ext
  match a with
  | ⟨0, _⟩ =>
    show (d.lhsIdx (ix2 r c) _ (0 : Fin 2)).val = r.val
    unfold DotDims.lhsIdx
    have hb : (0 : Fin 2) ∉ d.lhsBatch := by rw [hd.lb]; exact List.not_mem_nil
    have hn : (0 : Fin 2) ∈ d.lhsNonContracting := by rw [hd.ln]; exact List.mem_singleton.mpr rfl
    rw [dif_neg hb, dif_pos hn]
    simp only [Fin.val_cast]
    have key : ∀ (p : Nat) (hp : p < 2), p = 0 → ((ix2 r c : (⟨2, ![M, N]⟩ : Shape).Idx) ⟨p, hp⟩).val = r.val :=
      fun p hp h => by subst h; rfl
    exact key _ _ (by simp [hd.lb, hd.ln])
  | ⟨1, _⟩ =>
    show (d.lhsIdx (ix2 r c) _ (1 : Fin 2)).val = k.val
    rw [d.lhsIdx_val_of_single hd.lc]
    exact contrEquiv1_symm_val d K (contr_rank d hd) (contr_size d hd) k

/-- The right operand is read at row the contraction coordinate, column `c`. -/
theorem rhsIdx_eq (r : Fin M) (c : Fin N) (k : Fin K) :
    d.rhsIdx (ix2 r c) ((contrEquiv1 d K (contr_rank d hd) (contr_size d hd)).symm k) = ix2 k c := by
  funext a
  apply Fin.ext
  match a with
  | ⟨0, _⟩ =>
    show (d.rhsIdx (ix2 r c) _ (0 : Fin 2)).val = k.val
    rw [d.rhsIdx_val_of_single hd.rc]
    exact contrEquiv1_symm_val d K (contr_rank d hd) (contr_size d hd) k
  | ⟨1, _⟩ =>
    show (d.rhsIdx (ix2 r c) _ (1 : Fin 2)).val = c.val
    unfold DotDims.rhsIdx
    have hb : (1 : Fin 2) ∉ d.rhsBatch := by rw [hd.rb]; exact List.not_mem_nil
    have hn : (1 : Fin 2) ∈ d.rhsNonContracting := by rw [hd.rn]; exact List.mem_singleton.mpr rfl
    rw [dif_neg hb, dif_pos hn]
    simp only [Fin.val_cast]
    have key : ∀ (p : Nat) (hp : p < 2), p = 1 → ((ix2 r c : (⟨2, ![M, N]⟩ : Shape).Idx) ⟨p, hp⟩).val = c.val :=
      fun p hp h => by subst h; rfl
    exact key _ _ (by simp [hd.lb, hd.ln, hd.rn])

/-- The contraction sum, re-indexed by the shared axis's coordinate. -/
theorem sum_eq (A : (⟨2, ![M, K]⟩ : Shape).Idx → EReal) (B : (⟨2, ![K, N]⟩ : Shape).Idx → EReal) (r : Fin M) (c : Fin N) :
    (∑ q : d.contr.Idx, A (d.lhsIdx (ix2 r c) q) * B (d.rhsIdx (ix2 r c) q)) = ∑ k : Fin K, A (ix2 r k) * B (ix2 k c) := by
  rw [← Equiv.sum_comp (contrEquiv1 d K (contr_rank d hd) (contr_size d hd)).symm]
  exact Finset.sum_congr rfl fun k _ => by rw [lhsIdx_eq d hd r c k, rhsIdx_eq d hd r c k]

/-- The kernel's matrix product into the zero accumulator, at an entry. -/
theorem matmul_zero_apply (prec : Option ContractPrecision) (A : FVec Ideal ⟨2, ![M, K]⟩ φ₁) (B : FVec Ideal ⟨2, ![K, N]⟩ φ₂)
    (r : Fin M) (c : Fin N) :
    FloatOps.matmul d prec A B (constant ⟨2, ![M, N]⟩ .f32 0x00000000#32) (ix2 r c) = ∑ k : Fin K, A (ix2 r k) * B (ix2 k c) := by
  rw [Ideal.matmul_constant_zero_apply]
  exact sum_eq d hd A B r c

/-- The host's dot product, at an entry. -/
theorem dotGeneral_apply (prec : Option ContractPrecision) (sched : HostSchedule) (A : FVec Ideal ⟨2, ![M, K]⟩ φ₁)
    (B : FVec Ideal ⟨2, ![K, N]⟩ φ₂) (r : Fin M) (c : Fin N) :
    FloatOps.dotGeneral d prec sched A B (ix2 r c) = ∑ k : Fin K, A (ix2 r k) * B (ix2 k c) := by
  rw [Ideal.dotGeneral_apply]
  exact sum_eq d hd A B r c

end PlainDot

end
-- ==== Proof.KernelRow.lean ====
/-
  The kernel's body, read at an entry of its output block.

  The body's arithmetic on a block of 5000 nodes falls into two layers. The first builds the block of
  pre-normalisation features from the blocks of summed neighbour features, neighbour counts and node features and
  from the two weight matrices and the bias: at (p, q) it is `lin` of row p's data. The second takes that block
  alone to its centred rows scaled by the inverse square root of each row's variance plus ε: at (p, q) it is
  `scaledMul` of row p. A row's statistics travel as a 5000×1 column that is broadcast back along the rows, and
  the two matrix products are plain sums over the shared axis.
-/
import proofs.«416080_j28527172780472_2_alg».proof.Proof.Gen.KernelIdeal.Skeleton
import proofs.«416080_j28527172780472_2_alg».proof.Proof.RowSpec
import proofs.«416080_j28527172780472_2_alg».proof.Proof.LibColumns
import proofs.«416080_j28527172780472_2_alg».proof.Proof.LibPlainDot
import Idealize.ShloMosaic.Lib.ValueLayout

noncomputable section

namespace Cert.Sage.KernelRow

open Cert.KernelIdeal Cert.KernelIdeal.Gen Idealize.ShloMosaic Idealize.ShloMosaic.ValueIdx
open scoped BigOperators

/-- The block of pre-normalisation features, from the body's six loads. -/
def linBlock (P0 : FVec Ideal S5000x1 .f32) (P1 P2 : FVec Ideal S5000x64 .f32) (P3 P4 : FVec Ideal S64x64 .f32)
    (P5 : FVec Ideal S1x64 .f32) : FVec Ideal S5000x64 .f32 :=
  addf
    (addf
      (matmul dot_S5000x64_S64x64_S5000x64_1_0_0_1_n_n none
        (divf (shapeCast S5000x64 P1 shapeCasts_S5000x64_S5000x64)
          (broadcastTo S5000x64
            (maximumf (shapeCast S5000x1 P0 shapeCasts_S5000x1_S5000x1) (broadcast S5000x1 (Scalar.ofBits .f32 0x3F800000#32)))
            broadcasts_S5000x1_S5000x64))
        (shapeCast S64x64 P3 shapeCasts_S64x64_S64x64) (constant S5000x64 .f32 0x00000000#32))
      (matmul dot_S5000x64_S64x64_S5000x64_1_0_0_1_n_n none P2 (shapeCast S64x64 P4 shapeCasts_S64x64_S64x64)
        (constant S5000x64 .f32 0x00000000#32)))
    (broadcastTo S5000x64 (shapeCast S1x64 P5 shapeCasts_S1x64_S1x64) broadcasts_S1x64_S5000x64)

/-- The zero word is the neutral accumulator of a float sum. -/
theorem zero_neutral : (0x00000000#32 : BitVec FTy.f32.bits) = FKind.add.neutral .f32 (.inl rfl) := rfl

/-- A block's row means, as a 5000×1 column. -/
def meanCol (h : FVec Ideal S5000x64 .f32) : FVec Ideal S5000x1 .f32 :=
  divf (shapeCast S5000x1 (multiReduction .add [1] S5000 h 0x00000000#32 reduces_S5000x64_S5000 (.inl rfl) zero_neutral) shapeCasts_S5000_S5000x1)
    (broadcast S5000x1 (Scalar.ofBits .f32 0x42800000#32))

/-- A block with each row's mean taken off. -/
def ctrBlock (h : FVec Ideal S5000x64 .f32) : FVec Ideal S5000x64 .f32 :=
  subf h (broadcastTo S5000x64 (meanCol h) broadcasts_S5000x1_S5000x64)

/-- The centred block scaled row by row by the inverse square root of the row's variance plus ε. -/
def normBlock (h : FVec Ideal S5000x64 .f32) : FVec Ideal S5000x64 .f32 :=
  mulf (ctrBlock h)
    (broadcastTo S5000x64
      (rsqrt (addf
        (divf (shapeCast S5000x1
            (multiReduction .add [1] S5000 (mulf (ctrBlock h) (ctrBlock h)) 0x00000000#32 reduces_S5000x64_S5000 (.inl rfl) zero_neutral)
            shapeCasts_S5000_S5000x1)
          (broadcast S5000x1 (Scalar.ofBits .f32 0x42800000#32)))
        (broadcast S5000x1 (Scalar.ofBits .f32 0x3727C5AC#32))))
      broadcasts_S5000x1_S5000x64)

/-- The body's first payload is the second layer of the first. -/
theorem pay2_eq (P0 : Vec Ideal S5000x1 .f32) (P1 P2 : Vec Ideal S5000x64 .f32) (P3 P4 : Vec Ideal S64x64 .f32)
    (P5 : Vec Ideal S1x64 .f32) : k0_pay2 P0 P1 P2 P3 P4 P5 = normBlock (linBlock P0 P1 P2 P3 P4 P5) := rfl

/-- The record of the body's matrix products is a plain product's. -/
theorem dot_plain : PlainDot.IsPlain dot_S5000x64_S64x64_S5000x64_1_0_0_1_n_n := ⟨rfl, rfl, rfl, rfl, rfl, rfl⟩

/-- The first layer at (p, q): the linear step of row p. -/
theorem linBlock_apply (P0 : FVec Ideal S5000x1 .f32) (P1 P2 : FVec Ideal S5000x64 .f32) (P3 P4 : FVec Ideal S64x64 .f32)
    (P5 : FVec Ideal S1x64 .f32) (p : Fin 5000) (q : Fin 64) :
    linBlock P0 P1 P2 P3 P4 P5 (ix2 p q)
      = lin (fun k => P1 (ix2 p k)) (P0 (ix2 p (0 : Fin 1))) (fun k => P2 (ix2 p k)) (fun k j => P3 (ix2 k j))
          (fun k j => P4 (ix2 k j)) (fun j => P5 (ix2 (0 : Fin 1) j)) q := by
  unfold linBlock lin
  simp only [matmul]
  rw [addf_apply, addf_apply, PlainDot.matmul_zero_apply _ dot_plain, PlainDot.matmul_zero_apply _ dot_plain,
    broadcastTo_1b_ab_apply]
  simp only [shapeCast_self, divf_apply, Columns.broadcastTo_a1_ab_apply, maximumf_apply, broadcast_apply]
  rfl

/-- A block's mean column at row p is the mean of row p. -/
theorem meanCol_apply (h : FVec Ideal S5000x64 .f32) (p : Fin 5000) (u : Fin 1) :
    meanCol h (ix2 p u) = rowMean (fun k => h (ix2 p k)) := by
  unfold meanCol rowMean
  rw [divf_apply, Columns.shapeCast_a_a1_apply, Columns.rowSum_apply, broadcast_apply]
  rfl

/-- The centred block at (p, q) is row p's centred entry q. -/
theorem ctrBlock_apply (h : FVec Ideal S5000x64 .f32) (p : Fin 5000) (q : Fin 64) :
    ctrBlock h (ix2 p q) = ctr (fun k => h (ix2 p k)) q := by
  unfold ctrBlock ctr
  rw [subf_apply, Columns.broadcastTo_a1_ab_apply, meanCol_apply]

/-- The second layer at (p, q): row p's centred entry q, scaled. -/
theorem normBlock_apply (h : FVec Ideal S5000x64 .f32) (p : Fin 5000) (q : Fin 64) :
    normBlock h (ix2 p q) = scaledMul (fun k => h (ix2 p k)) q := by
  unfold normBlock scaledMul rowVar
  rw [mulf_apply, Columns.broadcastTo_a1_ab_apply, ctrBlock_apply]
  show _ * Ideal.rsqrt (_ + _) = _
  rw [divf_apply, Columns.shapeCast_a_a1_apply, Columns.rowSum_apply, broadcast_apply, broadcast_apply]
  simp only [mulf_apply, ctrBlock_apply]
  rfl

/-- The body's first payload at (p, q). -/
theorem pay2_apply (P0 : Vec Ideal S5000x1 .f32) (P1 P2 : Vec Ideal S5000x64 .f32) (P3 P4 : Vec Ideal S64x64 .f32)
    (P5 : Vec Ideal S1x64 .f32) (p : Fin 5000) (q : Fin 64) :
    k0_pay2 P0 P1 P2 P3 P4 P5 (ix2 p q)
      = scaledMul (lin (fun k => P1 (ix2 p k)) (P0 (ix2 p (0 : Fin 1))) (fun k => P2 (ix2 p k)) (fun k j => P3 (ix2 k j))
          (fun k j => P4 (ix2 k j)) (fun j => P5 (ix2 (0 : Fin 1) j))) q := by
  rw [pay2_eq, normBlock_apply]
  exact congrArg (fun f => scaledMul f q) (funext fun k => linBlock_apply P0 P1 P2 P3 P4 P5 p k)

/-- A block scaled by the gain row and shifted by the shift row. -/
def affBlock (v : FVec Ideal S5000x64 .f32) (P6 P7 : FVec Ideal S1x64 .f32) : FVec Ideal S5000x64 .f32 :=
  addf (mulf v (broadcastTo S5000x64 (shapeCast S1x64 P6 shapeCasts_S1x64_S1x64) broadcasts_S1x64_S5000x64))
    (broadcastTo S5000x64 (shapeCast S1x64 P7 shapeCasts_S1x64_S1x64) broadcasts_S1x64_S5000x64)

/-- The ELU of that block: the entry itself where positive, its exponential less one elsewhere. -/
def eluBlock (v : FVec Ideal S5000x64 .f32) (P6 P7 : FVec Ideal S1x64 .f32) : FVec Ideal S5000x64 .f32 :=
  select (cmpf .ogt (affBlock v P6 P7) (broadcast S5000x64 (Scalar.ofBits .f32 0x00000000#32))) (affBlock v P6 P7)
    (subf (exp (affBlock v P6 P7)) (broadcast S5000x64 (Scalar.ofBits .f32 0x3F800000#32)))

/-- The body's second payload, the one it stores, is that. -/
theorem pay1_eq (v : FVec Ideal S5000x64 .f32) (P6 P7 : Vec Ideal S1x64 .f32) : k0_pay1 v P6 P7 = eluBlock v P6 P7 := rfl

theorem affBlock_apply (v : FVec Ideal S5000x64 .f32) (P6 P7 : FVec Ideal S1x64 .f32) (p : Fin 5000) (q : Fin 64) :
    affBlock v P6 P7 (ix2 p q) = v (ix2 p q) * P6 (ix2 (0 : Fin 1) q) + P7 (ix2 (0 : Fin 1) q) := by
  unfold affBlock
  rw [addf_apply, mulf_apply, broadcastTo_1b_ab_apply, broadcastTo_1b_ab_apply, shapeCast_self, shapeCast_self]

theorem eluBlock_apply (v : FVec Ideal S5000x64 .f32) (P6 P7 : FVec Ideal S1x64 .f32) (p : Fin 5000) (q : Fin 64) :
    eluBlock v P6 P7 (ix2 p q) = eluWord (v (ix2 p q) * P6 (ix2 (0 : Fin 1) q) + P7 (ix2 (0 : Fin 1) q)) := by
  unfold eluBlock eluWord
  rw [select_apply, cmpf_apply, subf_apply, broadcast_apply, broadcast_apply]
  show Scalar.select (Ideal.cmp .ogt (affBlock v P6 P7 (ix2 p q)) _) (affBlock v P6 P7 (ix2 p q))
    (Ideal.exp (affBlock v P6 P7 (ix2 p q)) - _) = _
  rw [affBlock_apply]
  rfl

/-- THE STORED VALUE AT (p, q): the row specification, the scale as a product, of row p's data. -/
theorem out_apply (P0 : Vec Ideal S5000x1 .f32) (P1 P2 : Vec Ideal S5000x64 .f32) (P3 P4 : Vec Ideal S64x64 .f32)
    (P5 P6 P7 : Vec Ideal S1x64 .f32) (p : Fin 5000) (q : Fin 64) :
    k0_pay1 (k0_pay2 P0 P1 P2 P3 P4 P5) P6 P7 (ix2 p q)
      = outMul (lin (fun k => P1 (ix2 p k)) (P0 (ix2 p (0 : Fin 1))) (fun k => P2 (ix2 p k)) (fun k j => P3 (ix2 k j))
          (fun k j => P4 (ix2 k j)) (fun j => P5 (ix2 (0 : Fin 1) j))) (fun j => P6 (ix2 (0 : Fin 1) j))
          (fun j => P7 (ix2 (0 : Fin 1) j)) q := by
  rw [pay1_eq, eluBlock_apply, pay2_apply]
  rfl

end Cert.Sage.KernelRow

end
-- ==== Proof.RefRow.lean ====
/-
  The reference, read at an entry of its result.

  Entry (r, j) of the reference's result depends on row r alone: on row r of the summed neighbour features and on
  node r's neighbour count (the two scatter results, kept whole here), on row r of the node features, and on the
  weights, bias, gain and shift. Read one operation at a time, the entry is the row specification's `outDiv` of
  that data: the matrix products are sums over the shared axis against the transposed weights, each row statistic
  is a sum along the row (from the initial value 0) divided by 64 and carried back to the row through a unit axis.
-/
import proofs.«416080_j28527172780472_2_alg».proof.Proof.Gen.ReferenceIdeal.Read
import proofs.«416080_j28527172780472_2_alg».proof.Proof.RowSpec

noncomputable section

namespace Cert.Sage.RefRow

open Cert.ReferenceIdeal Cert.ReferenceIdeal.Read Idealize.ShloMosaic Idealize.ShloMosaic.ValueIdx
open scoped BigOperators

variable (x0 : (⟨S100000x64, .f32⟩ : BufTy).Contents (Elt Ideal)) (x1 : (⟨S2x1000000, .i32⟩ : BufTy).Contents (Elt Ideal))
  (x2 x3 : (⟨S64x64, .f32⟩ : BufTy).Contents (Elt Ideal)) (x4 x5 x6 : (⟨S64, .f32⟩ : BufTy).Contents (Elt Ideal))

/-! ## Where each operation reads its operand, at an entry (r, j), a column entry (r, 0) or a row r -/

local macro "idx2" : tactic =>
  `(tactic| (funext a; apply Fin.ext; match a with | ⟨0, _⟩ => rfl | ⟨1, _⟩ => rfl))
local macro "idx1" : tactic =>
  `(tactic| (funext a; apply Fin.ext; match a with | ⟨0, _⟩ => rfl))

theorem i21 (r : Fin 100000) (j : Fin 64) : idx_main_v21 (ix2 r j) = ix2 r (0 : Fin 1) := by idx2
theorem i35 (r : Fin 100000) (j : Fin 64) : idx_main_v35 (ix2 r j) = ix2 r (0 : Fin 1) := by idx2
theorem i42 (r : Fin 100000) (j : Fin 64) : idx_main_v42 (ix2 r j) = ix2 r (0 : Fin 1) := by idx2
theorem i47 (r : Fin 100000) (j : Fin 64) : idx_main_v47 (ix2 r j) = ix2 r (0 : Fin 1) := by idx2
theorem i20 (r : Fin 100000) (u : Fin 1) : idx_main_v20 (ix2 r u) = ix1 r := by idx1
theorem i32 (r : Fin 100000) (u : Fin 1) : idx_main_v32 (ix2 r u) = ix1 r := by idx1
theorem i39 (r : Fin 100000) (u : Fin 1) : idx_main_v39 (ix2 r u) = ix1 r := by idx1
theorem i31 (r : Fin 100000) (k : Fin 64) : idx_main_v31 (ix1 r) k = ix2 r k := by idx2
theorem i38 (r : Fin 100000) (k : Fin 64) : idx_main_v38 (ix1 r) k = ix2 r k := by idx2
theorem l24 (r : Fin 100000) (j k : Fin 64) : lidx_main_v24 (ix2 r j) k = ix2 r k := by idx2
theorem r24 (r : Fin 100000) (j k : Fin 64) : ridx_main_v24 (ix2 r j) k = ix2 k j := by idx2
theorem l26 (r : Fin 100000) (j k : Fin 64) : lidx_main_v26 (ix2 r j) k = ix2 r k := by idx2
theorem r26 (r : Fin 100000) (j k : Fin 64) : ridx_main_v26 (ix2 r j) k = ix2 k j := by idx2
theorem i23 (k j : Fin 64) : idx_main_v23 (ix2 k j) = ix2 j k := by idx2
theorem i25 (k j : Fin 64) : idx_main_v25 (ix2 k j) = ix2 j k := by idx2
theorem i29 (r : Fin 100000) (j : Fin 64) : idx_main_v29 (ix2 r j) = ix2 (0 : Fin 1) j := by idx2
theorem i50 (r : Fin 100000) (j : Fin 64) : idx_main_v50 (ix2 r j) = ix2 (0 : Fin 1) j := by idx2
theorem i53 (r : Fin 100000) (j : Fin 64) : idx_main_v53 (ix2 r j) = ix2 (0 : Fin 1) j := by idx2
theorem i28 (u : Fin 1) (j : Fin 64) : idx_main_v28 (ix2 u j) = ix1 j := by idx1
theorem i49 (u : Fin 1) (j : Fin 64) : idx_main_v49 (ix2 u j) = ix1 j := by idx1
theorem i52 (u : Fin 1) (j : Fin 64) : idx_main_v52 (ix2 u j) = ix1 j := by idx1

/-! ## The layers -/

/-- Row r's data for the linear step: the two scatter results at row r, the node's features, the transposed weights, the bias. -/
abbrev feat (r : Fin 100000) : Fin 64 → EReal :=
  lin (fun k => val_main_v13 (F := Ideal) x0 x1 (ix2 r k)) (val_main_v17 (F := Ideal) x1 (ix1 r)) (fun k => x0 (ix2 r k))
    (fun k j => x2 (ix2 j k)) (fun k j => x3 (ix2 j k)) (fun j => x4 (ix1 j))

/-- The pre-normalisation features at (r, j). -/
theorem v30_apply (r : Fin 100000) (j : Fin 64) :
    val_main_v30 (F := Ideal) x0 x1 x2 x3 x4 (ix2 r j) = feat x0 x1 x2 x3 x4 r j := by
  rw [val_main_v30_apply, val_main_v27_apply, val_main_v24_apply, val_main_v26_apply, val_main_v29_apply, val_main_v28_apply,
    i29, i28, Ideal.addf_def, Ideal.addf_def]
  unfold feat lin
  refine congrArg₂ (· + ·) (congrArg₂ (· + ·) (Finset.sum_congr rfl fun k _ => ?_) (Finset.sum_congr rfl fun k _ => ?_)) rfl
  · rw [l24, r24, val_main_v22_apply, val_main_v21_apply, i21, val_main_v20_apply, i20, val_main_v19_apply,
      val_main_v18_apply, val_main_cst_3_apply, val_main_v23_apply, i23]
    rfl
  · rw [l26, r26, val_main_v25_apply, i25]

/-- The row mean, carried as a column, at (r, 0). -/
theorem v34_apply (r : Fin 100000) (u : Fin 1) :
    val_main_v34 (F := Ideal) x0 x1 x2 x3 x4 (ix2 r u) = rowMean (feat x0 x1 x2 x3 x4 r) := by
  rw [val_main_v34_apply, val_main_v32_apply, i32, val_main_v31_apply, val_main_v33_apply, val_main_cst_5_apply,
    val_main_cst_4_apply, Ideal.ofBits_def, Ideal.ofBits_zero_f32, zero_add, Ideal.hostDivf_def]
  unfold rowMean
  refine congrArg₂ Ideal.div (Finset.sum_congr rfl fun k _ => ?_) rfl
  rw [i31, v30_apply]

/-- The centred entry (the operation is printed twice). -/
theorem v36_apply (r : Fin 100000) (j : Fin 64) :
    val_main_v36 (F := Ideal) x0 x1 x2 x3 x4 (ix2 r j) = ctr (feat x0 x1 x2 x3 x4 r) j := by
  rw [val_main_v36_apply, val_main_v35_apply, i35, v34_apply, v30_apply]
  rfl

theorem v43_apply (r : Fin 100000) (j : Fin 64) :
    val_main_v43 (F := Ideal) x0 x1 x2 x3 x4 (ix2 r j) = ctr (feat x0 x1 x2 x3 x4 r) j := by
  rw [val_main_v43_apply, val_main_v42_apply, i42, v34_apply, v30_apply]
  rfl

/-- The row variance, carried as a column, at (r, 0). -/
theorem v41_apply (r : Fin 100000) (u : Fin 1) :
    val_main_v41 (F := Ideal) x0 x1 x2 x3 x4 (ix2 r u) = rowVar (feat x0 x1 x2 x3 x4 r) := by
  rw [val_main_v41_apply, val_main_v39_apply, i39, val_main_v38_apply, val_main_v40_apply, val_main_cst_7_apply,
    val_main_cst_6_apply, Ideal.ofBits_def, Ideal.ofBits_zero_f32, zero_add, Ideal.hostDivf_def]
  unfold rowVar
  refine congrArg₂ Ideal.div (Finset.sum_congr rfl fun k _ => ?_) rfl
  rw [i38, val_main_v37_apply, v36_apply]
  rfl

/-- The centred entry over the square root of variance plus ε. -/
theorem v48_apply (r : Fin 100000) (j : Fin 64) :
    val_main_v48 (F := Ideal) x0 x1 x2 x3 x4 (ix2 r j) = scaledDiv (feat x0 x1 x2 x3 x4 r) j := by
  rw [val_main_v48_apply, val_main_v47_apply, i47, val_main_v46_apply, val_main_v45_apply, val_main_v44_apply,
    val_main_cst_8_apply, v41_apply, v43_apply]
  rfl

/-- The normalised, scaled and shifted entry. -/
theorem v54_apply (r : Fin 100000) (j : Fin 64) :
    val_main_v54 (F := Ideal) x0 x1 x2 x3 x4 x5 x6 (ix2 r j)
      = scaledDiv (feat x0 x1 x2 x3 x4 r) j * x5 (ix1 j) + x6 (ix1 j) := by
  rw [val_main_v54_apply, val_main_v51_apply, val_main_v50_apply, val_main_v49_apply, val_main_v53_apply, val_main_v52_apply,
    i50, i49, i53, i52, v48_apply]
  rfl

/-- THE REFERENCE AT (r, j): the row specification, the scale as a quotient, of row r's data. -/
theorem v58_apply (r : Fin 100000) (j : Fin 64) :
    val_main_v58 (F := Ideal) x0 x1 x2 x3 x4 x5 x6 (ix2 r j)
      = outDiv (feat x0 x1 x2 x3 x4 r) (fun j => x5 (ix1 j)) (fun j => x6 (ix1 j)) j := by
  rw [val_main_v58_apply, val_main_v56_apply, val_main_v57_apply, val_main_v55_apply, val_main_cst_9_apply, v54_apply]
  rfl

end Cert.Sage.RefRow

end
-- ==== Proof.HostArrays.lean ====
/-
  What the kernel's host operations leave in the arrays its windows stage.

  Before the region the program slices the edge list into its row of source nodes and its row of destination
  nodes, clips each row to [0, 99999], wraps negative source numbers, gathers the source rows of the node features,
  and scatter-adds them, and a vector of ones, at the destination rows: the summed neighbour features and the
  neighbour counts. The counts are reshaped to a column, the two weight matrices transposed, and bias, gain and
  shift reshaped to 1×64. Each window's array at region entry is that term of the argument arrays.
-/
import proofs.«416080_j28527172780472_2_alg».proof.Proof.Gen.KernelIdeal.Frame
import Idealize.ShloMosaic.Lib.StableHlo.Run

noncomputable section

namespace Cert.Sage.HostArrays

open Cert.KernelIdeal Cert.KernelIdeal.Gen Idealize.ShloMosaic Idealize.ShloMosaic.TcCoe Idealize.SL.Sem
open Idealize.ShloMosaic.StableHlo

variable {F : FTy → Type} [FloatOps F]

/-- The edge list's row of source nodes. -/
def srcRow (e : IVec S2x1000000 32) : IVec S1000000 32 :=
  shapeCast S1000000 (extractStridedSlice S1x1000000 ![0, 0] e slices_S2x1000000_S1x1000000_0_0) shapeCasts_S1x1000000_S1000000

/-- The edge list's row of destination nodes. -/
def dstRow (e : IVec S2x1000000 32) : IVec S1000000 32 :=
  shapeCast S1000000 (extractStridedSlice S1x1000000 ![1, 0] e slices_S2x1000000_S1x1000000_1_0) shapeCasts_S1x1000000_S1000000

/-- A row of node numbers clipped to [0, 99999]. -/
def clip (v : IVec S1000000 32) : IVec S1000000 32 :=
  minsi (broadcastInDim S1000000 ![] bcast_S_S1000000 (constantI S_ 32 99999#32))
    (maxsi (broadcastInDim S1000000 ![] bcast_S_S1000000 (constantI S_ 32 0#32)) v)

/-- A row of node numbers with the negative ones moved up by the number of nodes. -/
def wrap (v : IVec S1000000 32) : IVec S1000000 32 :=
  select (cmpi .slt v (broadcastInDim S1000000 ![] bcast_S_S1000000 (constantI S_ 32 0#32)))
    (addi v (broadcastInDim S1000000 ![] bcast_S_S1000000 (constantI S_ 32 100000#32))) v

/-- The features of the source nodes, summed at the destination nodes. -/
def aggOf (x : FVec F S100000x64 .f32) (s d : IVec S1000000 32) : FVec F S100000x64 .f32 :=
  Host.scatterAdd scatter_S100000x64_S1000000x1_S1000000x64_1_0_0_1
    (broadcastInDim S100000x64 ![] bcast_S_S100000x64 (constant S_ .f32 0x00000000#32))
    (broadcastInDim S1000000x1 ![0] bcast_S1000000_S1000000x1_0 d)
    (Host.gather gather_S100000x64_S1000000x1_S1000000x64_1_0_n_n_0_1_164 x
      (broadcastInDim S1000000x1 ![0] bcast_S1000000_S1000000x1_0 s))

/-- The number of edges arriving at each node. -/
def cntOf (d : IVec S1000000 32) : FVec F S100000 .f32 :=
  Host.scatterAdd scatter_S100000_S1000000x1_S1000000_n_0_0_1
    (broadcastInDim S100000 ![] bcast_S_S100000 (constant S_ .f32 0x00000000#32))
    (broadcastInDim S1000000x1 ![0] bcast_S1000000_S1000000x1_0 d)
    (broadcastInDim S1000000 ![] bcast_S_S1000000 (constant S_ .f32 0x3F800000#32))

variable (m : (ℓ : Loc nD τ sig) → Buf (Elt F) ℓ)

set_option maxHeartbeats 4000000 in
/-- Window 0's array: the summed neighbour features, from the clipped (and, for sources, wrapped) rows. -/
theorem V_agg (c : Dev nD) :
    (V m c main_v15 : FVec F S100000x64 .f32)
      = aggOf (m ((c : Thread nD τ).loc main_arg0)) (wrap (clip (srcRow (m ((c : Thread nD τ).loc main_arg1)))))
          (clip (dstRow (m ((c : Thread nD τ).loc main_arg1)))) := by
  dsimp only [Gen.V]
  simp only [hostOps0, hostOps0_1, hostOps0_2, hostOps0_3, hostOps0_4, List.flatten_cons, List.flatten_nil, List.append_nil,
    List.cons_append, List.nil_append]
  after_results
  rfl

set_option maxHeartbeats 4000000 in
/-- Window 1's array: the neighbour counts as a column. -/
theorem V_cnt (c : Dev nD) :
    (V m c main_v20 : FVec F S100000x1 .f32)
      = shapeCast S100000x1 (cntOf (F := F) (clip (dstRow (m ((c : Thread nD τ).loc main_arg1))))) shapeCasts_S100000_S100000x1 := by
  dsimp only [Gen.V]
  simp only [hostOps0, hostOps0_1, hostOps0_2, hostOps0_3, hostOps0_4, List.flatten_cons, List.flatten_nil, List.append_nil,
    List.cons_append, List.nil_append]
  after_results
  rfl

/-- Window 3's array: the first weight matrix transposed. -/
theorem V_wl (c : Dev nD) :
    (V m c main_v21 : FVec F S64x64 .f32)
      = transpose S64x64 [1, 0] (m ((c : Thread nD τ).loc main_arg2)) transposes_S64x64_S64x64_1_0 := by
  dsimp only [Gen.V]
  simp only [hostOps0, hostOps0_1, hostOps0_2, hostOps0_3, hostOps0_4, List.flatten_cons, List.flatten_nil, List.append_nil,
    List.cons_append, List.nil_append]
  after_results

/-- Window 4's array: the second weight matrix transposed. -/
theorem V_wr (c : Dev nD) :
    (V m c main_v22 : FVec F S64x64 .f32)
      = transpose S64x64 [1, 0] (m ((c : Thread nD τ).loc main_arg3)) transposes_S64x64_S64x64_1_0 := by
  dsimp only [Gen.V]
  simp only [hostOps0, hostOps0_1, hostOps0_2, hostOps0_3, hostOps0_4, List.flatten_cons, List.flatten_nil, List.append_nil,
    List.cons_append, List.nil_append]
  after_results

/-- Window 5's array: the bias as a 1×64 row. -/
theorem V_b (c : Dev nD) :
    (V m c main_v23 : FVec F S1x64 .f32) = shapeCast S1x64 (m ((c : Thread nD τ).loc main_arg4)) shapeCasts_S64_S1x64 := by
  dsimp only [Gen.V]
  simp only [hostOps0, hostOps0_1, hostOps0_2, hostOps0_3, hostOps0_4, List.flatten_cons, List.flatten_nil, List.append_nil,
    List.cons_append, List.nil_append]
  after_results
  rfl

/-- Window 6's array: the gain as a 1×64 row. -/
theorem V_g (c : Dev nD) :
    (V m c main_v24 : FVec F S1x64 .f32) = shapeCast S1x64 (m ((c : Thread nD τ).loc main_arg5)) shapeCasts_S64_S1x64 := by
  dsimp only [Gen.V]
  simp only [hostOps0, hostOps0_1, hostOps0_2, hostOps0_3, hostOps0_4, List.flatten_cons, List.flatten_nil, List.append_nil,
    List.cons_append, List.nil_append]
  after_results
  rfl

/-- Window 7's array: the shift as a 1×64 row. -/
theorem V_be (c : Dev nD) :
    (V m c main_v25 : FVec F S1x64 .f32) = shapeCast S1x64 (m ((c : Thread nD τ).loc main_arg6)) shapeCasts_S64_S1x64 := by
  dsimp only [Gen.V]
  simp only [hostOps0, hostOps0_1, hostOps0_2, hostOps0_3, hostOps0_4, List.flatten_cons, List.flatten_nil, List.append_nil,
    List.cons_append, List.nil_append]
  after_results
  rfl

end Cert.Sage.HostArrays

end
-- ==== Proof.AggSame.lean ====
/-
  Under the range hypothesis the two programs aggregate alike.

  The kernel clips the source and destination rows of the edge list to [0, 99999] before it gathers and
  scatter-adds; the reference uses them as they come. Where every entry of the edge list is a node number the clip
  changes nothing, and the kernel's summed neighbour features and neighbour counts are, term for term, the
  reference's two scatter results (each side wraps negative source numbers the same way after that).
-/
import proofs.«416080_j28527172780472_2_alg».proof.Proof.HostArrays
import proofs.«416080_j28527172780472_2_alg».proof.Proof.EdgeRange
import proofs.«416080_j28527172780472_2_alg».proof.Proof.Gen.ReferenceIdeal.Read

noncomputable section

namespace Cert.Sage.AggSame

open Idealize.ShloMosaic Cert.Sage.HostArrays

variable {F : FTy → Type} [FloatOps F]

/-- A row of node numbers is its own clip. -/
theorem clip_row (v : IVec Cert.KernelIdeal.S1000000 32) (hv : ∀ i, (v i).toNat < 100000) : clip v = v :=
  funext fun i => EdgeRange.clip_id (v i) (hv i)

/-- The entries of the source row are entries of the edge list. -/
theorem srcRow_lt (e : IVec Cert.KernelIdeal.S2x1000000 32) (he : ∀ i, (e i).toNat < 100000) (i : Cert.KernelIdeal.S1000000.Idx) :
    (srcRow e i).toNat < 100000 := he _

/-- The entries of the destination row are entries of the edge list. -/
theorem dstRow_lt (e : IVec Cert.KernelIdeal.S2x1000000 32) (he : ∀ i, (e i).toNat < 100000) (i : Cert.KernelIdeal.S1000000.Idx) :
    (dstRow e i).toNat < 100000 := he _

/-- The kernel's summed neighbour features are the reference's first scatter result. -/
theorem agg_same (x : FVec F Cert.KernelIdeal.S100000x64 .f32) (e : IVec Cert.KernelIdeal.S2x1000000 32)
    (he : ∀ i, (e i).toNat < 100000) :
    aggOf x (wrap (clip (srcRow e))) (clip (dstRow e)) = Cert.ReferenceIdeal.Read.val_main_v13 (F := F) x e := by
  rw [clip_row _ (srcRow_lt e he), clip_row _ (dstRow_lt e he)]
  rfl

/-- The kernel's neighbour counts are the reference's second scatter result. -/
theorem cnt_same (e : IVec Cert.KernelIdeal.S2x1000000 32) (he : ∀ i, (e i).toNat < 100000) :
    cntOf (F := F) (clip (dstRow e)) = Cert.ReferenceIdeal.Read.val_main_v17 (F := F) e := by
  rw [clip_row _ (dstRow_lt e he)]
  rfl

end Cert.Sage.AggSame

end
-- ==== Proof.KernelValue.lean ====
/-
  The kernel's result array, whole: it is the reference's result term of the kernel's own argument arrays.

  The grid has 20 points; point t stages rows 5000·t … 5000·t + 4999 of the summed neighbour features, of the
  neighbour-count column and of the node features, the two transposed weight matrices and the three 1×64 rows
  whole, and writes back rows 5000·t … 5000·t + 4999 of the result. Entry (p, q) of what point t writes back is the
  row specification of row 5000·t + p's data (the body read at an entry), and so is entry (5000·t + p, q) of the
  reference's term (the reference read at an entry): the staged blocks are the arrays' rows, the arrays are the
  reference's scatter results and the transposed or reshaped arguments, and the two spellings of the
  specification are one function. The 20 blocks tile the array, so the array after the run is that term.
  The range hypothesis on the edge list enters once, where the kernel's clipped aggregation meets the reference's.
-/
import proofs.«416080_j28527172780472_2_alg».proof.Proof.Gen.KernelIdeal.Value
import proofs.«416080_j28527172780472_2_alg».proof.Proof.KernelRow
import proofs.«416080_j28527172780472_2_alg».proof.Proof.RefRow
import proofs.«416080_j28527172780472_2_alg».proof.Proof.AggSame
import Idealize.ShloMosaic.Lib.ValueLayout

noncomputable section

namespace Cert.Sage.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The range hypothesis: every entry of the edge list, on every device, is a node number. -/
def InRange : Prop := ∀ (c : Dev nD) (i : S2x1000000.Idx), ((m ((c : Thread nD τ).loc main_arg1) : IVec S2x1000000 32) i).toNat < 100000

/-- The reference's result term of the kernel's argument arrays. -/
abbrev G (c : Dev nD) : S100000x64.Idx → EReal :=
  Cert.ReferenceIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

theorem grid_lt (t : Fin cfg0.N) : t.val < 20 := lt_of_lt_of_eq t.isLt N_0

/-- Row p of point t's blocks is row 5000·t + p of the arrays. -/
def row (t : Fin cfg0.N) (p : Fin 5000) : Fin 100000 :=
  ⟨t.val * 5000 + p.val, by have := grid_lt t; have := p.isLt; omega⟩

/-- The printed index maps over the grid: the row-blocked windows are at block (t, 0), the others at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_8.index t (0 : Fin 2) = t.val ∧ win0_8.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-! ## Where a block's entry sits in its array -/

theorem emb0 (t : Fin cfg0.N) (p : Fin 5000) (k : Fin 64) : ((cfg0.win 0).blk t).view.emb (ix2 p k) = ix2 (row t p) k := by
  obtain ⟨e0, e1, -⟩ := idx_facts t
  funext a; apply Fin.ext
  match a with
  | ⟨0, _⟩ => show win0_0.index t (0 : Fin 2) * 5000 + 1 * p.val = t.val * 5000 + p.val; omega
  | ⟨1, _⟩ => show win0_0.index t (1 : Fin 2) * 64 + 1 * k.val = k.val; omega

theorem emb1 (t : Fin cfg0.N) (p : Fin 5000) (u : Fin 1) : ((cfg0.win 1).blk t).view.emb (ix2 p u) = ix2 (row t p) u := by
  obtain ⟨-, -, e0, e1, -⟩ := idx_facts t
  funext a; apply Fin.ext
  match a with
  | ⟨0, _⟩ => show win0_1.index t (0 : Fin 2) * 5000 + 1 * p.val = t.val * 5000 + p.val; omega
  | ⟨1, _⟩ => show win0_1.index t (1 : Fin 2) * 1 + 1 * u.val = u.val; omega

theorem emb2 (t : Fin cfg0.N) (p : Fin 5000) (k : Fin 64) : ((cfg0.win 2).blk t).view.emb (ix2 p k) = ix2 (row t p) k := by
  obtain ⟨-, -, -, -, e0, e1, -⟩ := idx_facts t
  funext a; apply Fin.ext
  match a with
  | ⟨0, _⟩ => show win0_2.index t (0 : Fin 2) * 5000 + 1 * p.val = t.val * 5000 + p.val; omega
  | ⟨1, _⟩ => show win0_2.index t (1 : Fin 2) * 64 + 1 * k.val = k.val; omega

theorem emb8 (t : Fin cfg0.N) (p : Fin 5000) (k : Fin 64) : ((cfg0.win 8).blk t).view.emb (ix2 p k) = ix2 (row t p) k := by
  obtain ⟨-, -, -, -, -, -, e0, e1, -⟩ := idx_facts t
  funext a; apply Fin.ext
  match a with
  | ⟨0, _⟩ => show win0_8.index t (0 : Fin 2) * 5000 + 1 * p.val = t.val * 5000 + p.val; omega
  | ⟨1, _⟩ => show win0_8.index t (1 : Fin 2) * 64 + 1 * k.val = k.val; omega

theorem emb3 (t : Fin cfg0.N) (k j : Fin 64) : ((cfg0.win 3).blk t).view.emb (ix2 k j) = ix2 k j := by
  obtain ⟨-, -, -, -, -, -, -, -, e0, e1, -⟩ := idx_facts t
  funext a; apply Fin.ext
  match a with
  | ⟨0, _⟩ => show win0_3.index t (0 : Fin 2) * 64 + 1 * k.val = k.val; omega
  | ⟨1, _⟩ => show win0_3.index t (1 : Fin 2) * 64 + 1 * j.val = j.val; omega

theorem emb4 (t : Fin cfg0.N) (k j : Fin 64) : ((cfg0.win 4).blk t).view.emb (ix2 k j) = ix2 k j := by
  obtain ⟨-, -, -, -, -, -, -, -, -, -, e0, e1, -⟩ := idx_facts t
  funext a; apply Fin.ext
  match a with
  | ⟨0, _⟩ => show win0_4.index t (0 : Fin 2) * 64 + 1 * k.val = k.val; omega
  | ⟨1, _⟩ => show win0_4.index t (1 : Fin 2) * 64 + 1 * j.val = j.val; omega

theorem emb5 (t : Fin cfg0.N) (u : Fin 1) (j : Fin 64) : ((cfg0.win 5).blk t).view.emb (ix2 u j) = ix2 u j := by
  obtain ⟨-, -, -, -, -, -, -, -, -, -, -, -, e0, e1, -⟩ := idx_facts t
  funext a; apply Fin.ext
  match a with
  | ⟨0, _⟩ => show win0_5.index t (0 : Fin 2) * 1 + 1 * u.val = u.val; omega
  | ⟨1, _⟩ => show win0_5.index t (1 : Fin 2) * 64 + 1 * j.val = j.val; omega

theorem emb6 (t : Fin cfg0.N) (u : Fin 1) (j : Fin 64) : ((cfg0.win 6).blk t).view.emb (ix2 u j) = ix2 u j := by
  obtain ⟨-, -, -, -, -, -, -, -, -, -, -, -, -, -, e0, e1, -⟩ := idx_facts t
  funext a; apply Fin.ext
  match a with
  | ⟨0, _⟩ => show win0_6.index t (0 : Fin 2) * 1 + 1 * u.val = u.val; omega
  | ⟨1, _⟩ => show win0_6.index t (1 : Fin 2) * 64 + 1 * j.val = j.val; omega

theorem emb7 (t : Fin cfg0.N) (u : Fin 1) (j : Fin 64) : ((cfg0.win 7).blk t).view.emb (ix2 u j) = ix2 u j := by
  obtain ⟨-, -, -, -, -, -, -, -, -, -, -, -, -, -, -, -, e0, e1⟩ := idx_facts t
  funext a; apply Fin.ext
  match a with
  | ⟨0, _⟩ => show win0_7.index t (0 : Fin 2) * 1 + 1 * u.val = u.val; omega
  | ⟨1, _⟩ => show win0_7.index t (1 : Fin 2) * 64 + 1 * j.val = j.val; omega

/-! ## What each staged block holds, in the reference's terms -/

/-- A window's block at a point is its array, as the region finds it, read through the block. -/
theorem iblk_read (c : Dev nD) (w : Fin cfg0.W) (t : Fin cfg0.N) :
    iblk m c w t = ((cfg0.win w).blk t).view.read (Elt Ideal) (V m c (Pipeline.arrRef spec0 w)) := by
  unfold iblk
  rfl

/-- The contents at region entry depend on the buffer's name only. -/
theorem V_congr (c : Dev nD) (b b' : Ref sig .tc) (h : b = b') : HEq (V m c b) (V m c b') := by
  subst h; exact HEq.rfl

/-- Window 0's array is the buffer of the summed neighbour features. -/
theorem V_at0 (c : Dev nD) : V m c (Pipeline.arrRef spec0 (0 : Fin cfg0.W)) = V m c main_v15 :=
  eq_of_heq (V_congr m c _ _ rfl)

/-- Window 1's array is the buffer of the neighbour-count column. -/
theorem V_at1 (c : Dev nD) : V m c (Pipeline.arrRef spec0 (1 : Fin cfg0.W)) = V m c main_v20 :=
  eq_of_heq (V_congr m c _ _ rfl)

/-- The summed-neighbour-features block: rows of the reference's first scatter result. -/
theorem blk0 (hr : InRange m) (c : Dev nD) (t : Fin cfg0.N) (p : Fin 5000) (k : Fin 64) :
    iblk m c 0 t (ix2 p k)
      = Cert.ReferenceIdeal.Read.val_main_v13 (F := Ideal) (m ((c : Thread nD τ).loc main_arg0)) (m ((c : Thread nD τ).loc main_arg1)) (ix2 (row t p) k) := by
  rw [iblk_read, View.read_apply, emb0, V_at0, HostArrays.V_agg, AggSame.agg_same _ _ (hr c)]
  exact cast_eq _ _

/-- The neighbour-count block: entries of the reference's second scatter result. -/
theorem blk1 (hr : InRange m) (c : Dev nD) (t : Fin cfg0.N) (p : Fin 5000) (u : Fin 1) :
    iblk m c 1 t (ix2 p u) = Cert.ReferenceIdeal.Read.val_main_v17 (F := Ideal) (m ((c : Thread nD τ).loc main_arg1)) (ix1 (row t p)) := by
  rw [iblk_read, View.read_apply, emb1, V_at1, HostArrays.V_cnt, Columns.shapeCast_a_a1_apply, AggSame.cnt_same _ (hr c)]
  exact cast_eq _ _

/-- The node-features block: rows of the first argument. -/
theorem blk2 (c : Dev nD) (t : Fin cfg0.N) (p : Fin 5000) (k : Fin 64) :
    iblk m c 2 t (ix2 p k) = (m ((c : Thread nD τ).loc main_arg0)) (ix2 (row t p) k) := by
  show V m c main_arg0 (((cfg0.win 2).blk t).view.emb (ix2 p k)) = _
  rw [emb2, V_main_arg0]

/-- The first weight matrix as staged is the argument transposed. -/
theorem blk3 (c : Dev nD) (t : Fin cfg0.N) (k j : Fin 64) : iblk m c 3 t (ix2 k j) = (m ((c : Thread nD τ).loc main_arg2)) (ix2 j k) := by
  show V m c main_v21 (((cfg0.win 3).blk t).view.emb (ix2 k j)) = _
  rw [emb3, HostArrays.V_wl, transpose_ix2_apply]

/-- The second weight matrix as staged is the argument transposed. -/
theorem blk4 (c : Dev nD) (t : Fin cfg0.N) (k j : Fin 64) : iblk m c 4 t (ix2 k j) = (m ((c : Thread nD τ).loc main_arg3)) (ix2 j k) := by
  show V m c main_v22 (((cfg0.win 4).blk t).view.emb (ix2 k j)) = _
  rw [emb4, HostArrays.V_wr, transpose_ix2_apply]

/-- The bias row as staged. -/
theorem blk5 (c : Dev nD) (t : Fin cfg0.N) (u : Fin 1) (j : Fin 64) : iblk m c 5 t (ix2 u j) = (m ((c : Thread nD τ).loc main_arg4)) (ix1 j) := by
  show V m c main_v23 (((cfg0.win 5).blk t).view.emb (ix2 u j)) = _
  rw [emb5, HostArrays.V_b, shapeCast_a_1a_apply]

/-- The gain row as staged. -/
theorem blk6 (c : Dev nD) (t : Fin cfg0.N) (u : Fin 1) (j : Fin 64) : iblk m c 6 t (ix2 u j) = (m ((c : Thread nD τ).loc main_arg5)) (ix1 j) := by
  show V m c main_v24 (((cfg0.win 6).blk t).view.emb (ix2 u j)) = _
  rw [emb6, HostArrays.V_g, shapeCast_a_1a_apply]

/-- The shift row as staged. -/
theorem blk7 (c : Dev nD) (t : Fin cfg0.N) (u : Fin 1) (j : Fin 64) : iblk m c 7 t (ix2 u j) = (m ((c : Thread nD τ).loc main_arg6)) (ix1 j) := by
  show V m c main_v25 (((cfg0.win 7).blk t).view.emb (ix2 u j)) = _
  rw [emb7, HostArrays.V_be, shapeCast_a_1a_apply]

/-! ## Point by point, then the whole array -/

theorem hz : (![0, 0] : Fin 2 → Nat) = fun _ => 0 := funext fun a => by fin_cases a <;> rfl

/-- WHAT POINT t WRITES BACK is block t of the reference's term. -/
theorem flushed_eq (hr : InRange m) (c : Dev nD) (t : Fin cfg0.N) :
    (dats m 0 c).flushed 8 t = ((cfg0.win 8).blk t).view.read (Elt Ideal) (G m c) := by
  rw [Cert.KernelIdeal.Value.flushed8]
  unfold out0_8
  rw [View.canon_unit_zero hz]
  simp only [View.ld_unit_zero (S := S5000x1) hz, View.ld_unit_zero (S := S5000x64) hz, View.ld_unit_zero (S := S64x64) hz,
    View.ld_unit_zero (S := S1x64) hz]
  funext j
  obtain ⟨p, q, rfl⟩ : ∃ (p : Fin 5000) (q : Fin 64), j = ix2 p q := ⟨j 0, j 1, eq_ix2 j⟩
  show k0_pay1 (k0_pay2 (iblk m c 1 t) (iblk m c 0 t) (iblk m c 2 t) (iblk m c 3 t) (iblk m c 4 t) (iblk m c 5 t))
      (iblk m c 6 t) (iblk m c 7 t) (ix2 p q) = G m c (((cfg0.win 8).blk t).view.emb (ix2 p q))
  rw [KernelRow.out_apply, outMul_eq_outDiv, emb8]
  unfold G
  rw [RefRow.v58_apply]
  simp only [blk0 m hr, blk1 m hr, blk2, blk3, blk4, blk5, blk6, blk7]

/-- An index of the array is in point t's block iff each coordinate is in the block's range on its axis. -/
theorem mem_blk (t : Fin cfg0.N) (i : S100000x64.Idx) :
    i ∈ ((cfg0.win 8).blk t).view.set
      ↔ ∀ a : Fin 2, win0_8.index t a * S5000x64.size a ≤ (i a).val ∧ (i a).val < win0_8.index t a * S5000x64.size a + S5000x64.size a := by
  show i ∈ ((View.whole main_v26).slice (win0_8.rect t)).set ↔ _
  rw [View.set_slice_whole, Rect.mem_set_unit]
  exact Iff.rfl

/-- The 20 blocks tile the array: row r is in the block of point r / 5000. -/
theorem cover (i : S100000x64.Idx) : ∃ t : Fin cfg0.N, (cfg0.win 8).flush t = true ∧ i ∈ ((cfg0.win 8).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  have ht : t.val = (i 0).val / 5000 := rfl
  obtain ⟨-, -, -, -, -, -, e0, e1, -⟩ := idx_facts t
  refine ⟨t, flush0_8 t, ?_⟩
  rw [mem_blk]
  intro a
  match a with
  | ⟨0, _⟩ =>
    show win0_8.index t (0 : Fin 2) * 5000 ≤ (i 0).val ∧ (i 0).val < win0_8.index t (0 : Fin 2) * 5000 + 5000
    omega
  | ⟨1, _⟩ =>
    show win0_8.index t (1 : Fin 2) * 64 ≤ (i 1).val ∧ (i 1).val < win0_8.index t (1 : Fin 2) * 64 + 64
    omega

/-- THE ARRAY after the run is the reference's term of the kernel's arguments. -/
theorem final (hr : InRange m) (c : Dev nD) : (dats m 0 c).arrAt 8 cfg0.N = G m c :=
  (dats m 0 c).arrAt_eq_of_cover 8 (G m c) (fun t _ => flushed_eq m hr c t) cover

/-- The kernel's run, its result array named. -/
theorem run (hr : InRange m) : θ_run defs (onTc (τ := τ) (main (F := Ideal))) ⟨m, fun _ => 0, ρ⟩ fun r => ∀ c : Dev nD,
      r.2.mem ((c : Thread nD τ).loc main_v26) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m hr c), (h c).2⟩) (Cert.KernelIdeal.Value.run_blocks m ρ)

end Cert.Sage.KernelValue

end
-- ==== Proof.lean ====
/-
  A graph layer with mean aggregation, layer normalisation and ELU: the kernel against its reference, on the
  extended reals.

  Both programs sum, for every node, the features of the nodes that send it an edge, and count those edges; divide
  the sum by the count (at least one); send the mean and the node's own features through two 64×64 linear maps and
  add a bias; normalise each row to zero mean and unit variance (ε added under the root), scale and shift it; and
  apply ELU. The kernel does the aggregation on the host and everything after it in one pass over blocks of 5000
  nodes; the reference does it all on whole arrays.

  The kernel clips the edge list's node numbers to [0, 99999] before it uses them as indices and the reference does
  not, so the claim is stated where every entry of the edge list is a node number (the precondition's two integer
  conjuncts): there the clip is the identity and the two aggregations are one term. After that the programs differ
  in spelling only — a product with rsqrt (v + ε) against a quotient by sqrt (v + ε), exp y − 1.0 against expm1 y, a
  matrix product into a zero accumulator against a dot product, a lane sum against a host sum — and each pair is one
  function on all of the extended reals, because the variance term v + ε is positive whatever a row holds. No
  finiteness of the float inputs is used.

  The kernel's result array is shown to be the reference's own result term of the kernel's arguments
  (KernelValue.lean: the blocks written back, entry by entry, through the row specification of RowSpec.lean), and
  the reference's run ends at that term of its arguments, which agree.
-/
import proofs.«416080_j28527172780472_2_alg».proof.Defs
import proofs.«416080_j28527172780472_2_alg».proof.Proof.Gen.Kernel
import proofs.«416080_j28527172780472_2_alg».proof.Proof.Gen.Kernel.Skeleton
import proofs.«416080_j28527172780472_2_alg».proof.Proof.Gen.Kernel.Launch
import proofs.«416080_j28527172780472_2_alg».proof.Proof.Gen.Kernel.Points
import proofs.«416080_j28527172780472_2_alg».proof.Proof.Gen.Kernel.Frame
import proofs.«416080_j28527172780472_2_alg».proof.Proof.Gen.KernelIdeal
import proofs.«416080_j28527172780472_2_alg».proof.Proof.Gen.KernelIdeal.Skeleton
import proofs.«416080_j28527172780472_2_alg».proof.Proof.Gen.KernelIdeal.Launch
import proofs.«416080_j28527172780472_2_alg».proof.Proof.Gen.KernelIdeal.Points
import proofs.«416080_j28527172780472_2_alg».proof.Proof.Gen.KernelIdeal.Frame
import proofs.«416080_j28527172780472_2_alg».proof.Proof.Gen.ReferenceIdeal
import proofs.«416080_j28527172780472_2_alg».proof.Proof.Gen.Pre_finite_inputs
import proofs.«416080_j28527172780472_2_alg».proof.Proof.Gen.KernelIdeal.Value
import proofs.«416080_j28527172780472_2_alg».proof.Proof.Gen.ReferenceIdeal.Run
import proofs.«416080_j28527172780472_2_alg».proof.Proof.Gen.ReferenceIdeal.Read
import proofs.«416080_j28527172780472_2_alg».proof.Proof.EdgeRange
import proofs.«416080_j28527172780472_2_alg».proof.Proof.KernelValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The precondition makes every entry of the edge list a node number. -/
theorem inRange_of_pre (m : (ℓ : Loc Cert.KernelIdeal.nD Cert.KernelIdeal.τ Cert.KernelIdeal.sig) → Buf (Elt Ideal) ℓ)
    (h : Cert.Pre_KernelIdeal m) : Cert.Sage.KernelValue.InRange m :=
  fun c i => Cert.Sage.EdgeRange.edge_lt _ _ _ _ _ _ _ (h c) i

/-- From arguments that agree both programs end at one array: the reference's result term of those arguments. -/
theorem algebraic : Cert.algebraic_KernelIdeal_ReferenceIdeal := by
  intro m ρ m' ρ' hpre hagree
  refine ⟨fun c => Cert.Sage.KernelValue.G m c, Cert.Sage.KernelValue.run m ρ (inRange_of_pre m hpre), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, (hagree c).1, (hagree c).2.1, (hagree c).2.2.1, (hagree c).2.2.2.1,
    (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
